-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S64x1024 : Shape := ⟨2, ![64, 1024]⟩
abbrev S64 : Shape := ⟨1, ![64]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x512x512 .f32) (main_arg1 : FVec F S8x512x512 .f32) (main_arg2 : FVec F S64x1024 .f32) (main_arg3 : FVec F S64 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x512x512 : Shape := ⟨3, ![8, 512, 512]⟩
abbrev S64x1024 : Shape := ⟨2, ![64, 1024]⟩
abbrev S64 : Shape := ⟨1, ![64]⟩
abbrev S64x512 : Shape := ⟨2, ![64, 512]⟩
abbrev S64x1 : Shape := ⟨2, ![64, 1]⟩
abbrev S8x64x512 : Shape := ⟨3, ![8, 64, 512]⟩
abbrev S1x512x512 : Shape := ⟨3, ![1, 512, 512]⟩
abbrev S1x64x512 : Shape := ⟨3, ![1, 64, 512]⟩
abbrev S512x512 : Shape := ⟨2, ![512, 512]⟩
abbrev S8x64x512x512 : Shape := ⟨4, ![8, 64, 512, 512]⟩
abbrev S1x64x128 : Shape := ⟨3, ![1, 64, 128]⟩
abbrev S1x64x128x128 : Shape := ⟨4, ![1, 64, 128, 128]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S64x1x1 : Shape := ⟨3, ![64, 1, 1]⟩

abbrev nBuf : Space → Nat
  | .hbm => 10
  | .vmem => 17
  | .smem => 0
  | _ => 0

abbrev bufTy : (tb : Table) → Fin (tcTables nBuf tb) → BufTy
  | .hbm, ⟨0, _⟩ => ⟨S8x512x512, .f32⟩
  | .hbm, ⟨1, _⟩ => ⟨S8x512x512, .f32⟩
  | .hbm, ⟨2, _⟩ => ⟨S64x1024, .f32⟩
  | .hbm, ⟨3, _⟩ => ⟨S64, .f32⟩
  | .hbm, ⟨4, _⟩ => ⟨S64x512, .f32⟩
  | .hbm, ⟨5, _⟩ => ⟨S64x512, .f32⟩
  | .hbm, ⟨6, _⟩ => ⟨S64x1, .f32⟩
  | .hbm, ⟨7, _⟩ => ⟨S8x64x512, .f32⟩
  | .hbm, ⟨8, _⟩ => ⟨S8x64x512, .f32⟩
  | .hbm, ⟨9, _⟩ => ⟨S8x64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S64x512, .f32⟩
  | .local _ .vmem, ⟨5, _⟩ => ⟨S64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S64x1, .f32⟩
  | .local _ .vmem, ⟨15, _⟩ => ⟨S1x64x128x128, .f32⟩
  | .local _ .vmem, ⟨16, _⟩ => ⟨S1x64x128x128, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage1_0 : Fin 2 → Memref sig .tc .vmem S1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x64x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  slices_S64x1024_S64x512_0_0 : S64x1024.Slices ![0, 0] S64x512
  slices_S64x1024_S64x512_0_512 : S64x1024.Slices ![0, 512] S64x512
  shapeCasts_S64_S64x1 : S64.ShapeCasts S64x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  shapeCasts_S64x1_S64x1x1 : S64x1.ShapeCasts S64x1x1
  broadcasts_S64x1x1_S64x128x128 : S64x1x1.Broadcasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  dot_S64x512_S512x512_S64x512_1_1_0_0_n_n_wf : DotDims.WF S64x512 S512x512 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x512x512.size a
  hwx0_0 : ∀ i : grid0.Coords, EltTy.bits .f32 = 32 ∨ (Rect.block (s := S8x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S8x64x512.size a
  hwx0_4 : ∀ i : grid0.Coords, EltTy.bits .f32 = 32 ∨ (Rect.block (s := S8x64x512) S1x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x512.size a ≤ S8x64x512.size a
  hwx0_5 : ∀ i : grid0.Coords, EltTy.bits .f32 = 32 ∨ (Rect.block (s := S8x64x512) S1x64x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128.size a ≤ S8x64x512.size a
  hwx1_0 : ∀ i : grid1.Coords, EltTy.bits .f32 = 32 ∨ (Rect.block (s := S8x64x512) S1x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x128.size a ≤ S8x64x512.size a
  hwx1_1 : ∀ i : grid1.Coords, EltTy.bits .f32 = 32 ∨ (Rect.block (s := S8x64x512) S1x64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128x128.size a ≤ S8x64x512x512.size a
  hwx1_3 : ∀ i : grid1.Coords, EltTy.bits .f32 = 32 ∨ (Rect.block (s := S8x64x512x512) S1x64x128x128.size (cc1_transform_3 i) (hinb1_3 i)).WholeWords (EltTy.packing .f32)

variable [Facts₀]

def dot_S64x512_S512x512_S64x512_1_1_0_0_n_n : DotDims S64x512 S512x512 S64x512 where
  lhsContracting := [1]
  rhsContracting := [1]
  lhsNonContracting := [0]
  rhsNonContracting := [0]
  lhsBatch := []
  rhsBatch := []
  wf := dot_S64x512_S512x512_S64x512_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x64x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x512x512 : Shape := ⟨3, ![8, 512, 512]⟩
abbrev S64x1024 : Shape := ⟨2, ![64, 1024]⟩
abbrev S64 : Shape := ⟨1, ![64]⟩
abbrev S64x512 : Shape := ⟨2, ![64, 512]⟩
abbrev S64x8x512 : Shape := ⟨3, ![64, 8, 512]⟩
abbrev S8x64x512 : Shape := ⟨3, ![8, 64, 512]⟩
abbrev S8x64x512x1 : Shape := ⟨4, ![8, 64, 512, 1]⟩
abbrev S8x64x1x512 : Shape := ⟨4, ![8, 64, 1, 512]⟩
abbrev S8x64x512x512 : Shape := ⟨4, ![8, 64, 512, 512]⟩
abbrev S1x64x1x1 : Shape := ⟨4, ![1, 64, 1, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x512x512, .f32⟩
  | .hbm, ⟨2, _⟩ => ⟨S64x1024, .f32⟩
  | .hbm, ⟨3, _⟩ => ⟨S64, .f32⟩
  | .hbm, ⟨4, _⟩ => ⟨S64x512, .f32⟩
  | .hbm, ⟨5, _⟩ => ⟨S64x512, .f32⟩
  | .hbm, ⟨6, _⟩ => ⟨S64x8x512, .f32⟩
  | .hbm, ⟨7, _⟩ => ⟨S8x64x512, .f32⟩
  | .hbm, ⟨8, _⟩ => ⟨S64x8x512, .f32⟩
  | .hbm, ⟨9, _⟩ => ⟨S8x64x512, .f32⟩
  | .hbm, ⟨10, _⟩ => ⟨S8x64x512x1, .f32⟩
  | .hbm, ⟨11, _⟩ => ⟨S8x64x1x512, .f32⟩
  | .hbm, ⟨12, _⟩ => ⟨S8x64x512x512, .f32⟩
  | .hbm, ⟨13, _⟩ => ⟨S8x64x512x512, .f32⟩
  | .hbm, ⟨14, _⟩ => ⟨S8x64x512x512, .f32⟩
  | .hbm, ⟨15, _⟩ => ⟨S1x64x1x1, .f32⟩
  | .hbm, ⟨16, _⟩ => ⟨S8x64x512x512, .f32⟩
  | .hbm, ⟨17, _⟩ => ⟨S8x64x512x512, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  slices_S64x1024_S64x512_0_0 : S64x1024.Slices ![0, 0] S64x512
  slices_S64x1024_S64x512_0_512 : S64x1024.Slices ![0, 512] S64x512
  transposes_S64x8x512_S8x64x512_1_0_2 : S64x8x512.Transposes [1, 0, 2] S8x64x512
  bcast_S8x64x512_S8x64x512x1_0_1_2 : S8x64x512.BroadcastsInDim S8x64x512x1 (![0, 1, 2] : Fin 3 → Fin S8x64x512x1.rank)
  bcast_S8x64x512_S8x64x1x512_0_1_3 : S8x64x512.BroadcastsInDim S8x64x1x512 (![0, 1, 3] : Fin 3 → Fin S8x64x1x512.rank)
  bcast_S8x64x512x1_S8x64x512x512_0_1_2_3 : S8x64x512x1.BroadcastsInDim S8x64x512x512 (![0, 1, 2, 3] : Fin 4 → Fin S8x64x512x512.rank)
  bcast_S8x64x1x512_S8x64x512x512_0_1_2_3 : S8x64x1x512.BroadcastsInDim S8x64x512x512 (![0, 1, 2, 3] : Fin 4 → Fin S8x64x512x512.rank)
  bcast_S64_S1x64x1x1_1 : S64.BroadcastsInDim S1x64x1x1 (![1] : Fin 1 → Fin S1x64x1x1.rank)
  bcast_S1x64x1x1_S8x64x512x512_0_1_2_3 : S1x64x1x1.BroadcastsInDim S8x64x512x512 (![0, 1, 2, 3] : Fin 4 → Fin S8x64x512x512.rank)
  dot_S64x512_S8x512x512_S64x8x512_1_2_0_01_n_n_wf : DotDims.WF S64x512 S8x512x512 S64x8x512 [1] [2] [0] [0, 1] [] []

variable [Facts₀]

def dot_S64x512_S8x512x512_S64x8x512_1_2_0_01_n_n : DotDims S64x512 S8x512x512 S64x8x512 where
  lhsContracting := [1]
  rhsContracting := [2]
  lhsNonContracting := [0]
  rhsNonContracting := [0, 1]
  lhsBatch := []
  rhsBatch := []
  wf := dot_S64x512_S8x512x512_S64x8x512_1_2_0_01_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Payloads.lean ====
/-
  What each kernel body stores, read at one index of the stored block.

  The first kernel's two stores are matrix products with the right operand's rows contracted against the left's
  (A · Bᵀ): entry (l, i) is Σ_k A[l, k] · B[i, k], A a [64, 512] weight block and B the [512, 512] feature block of one batch
  entry; the narrowing of both operands to bf16 is the identity on extended reals and the accumulator is zero. The
  second kernel's store is, at (l, p, q), the sum of column entry (l, p) of one block, row entry (l, q) of the other and the
  bias column's entry l: each operand reaches the [64, 128, 128] block by a unit axis inserted and then stretched.
-/
import proofs.«150450_j56049323213774_1_alg».proof.Proof.Gen.KernelIdeal.Skeleton
import proofs.«150450_j56049323213774_1_alg».proof.Proof.LibContraction
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Lib.Contraction

/-! ## The product A · Bᵀ at an entry -/

/-- The product's dimension numbers: axis 1 of each operand contracted, axis 0 of each free, no batch axis. -/
abbrev mm : DotDims S64x512 S512x512 S64x512 := dot_S64x512_S512x512_S64x512_1_1_0_0_n_n

theorem mm_lhs_row (j : S64x512.Idx) (q : mm.contr.Idx) : (mm.lhsIdx j q 0).val = (j 0).val :=
  lhs_free mm rfl rfl j q (by decide)

theorem mm_rhs_row (j : S64x512.Idx) (q : mm.contr.Idx) : (mm.rhsIdx j q 0).val = (j 1).val :=
  rhs_free mm rfl rfl rfl rfl j q (by decide)

theorem mm_lhs_col (j : S64x512.Idx) (k : Fin 512) : (mm.lhsIdx j ((contrFin mm rfl 512 rfl).symm k) 1).val = k.val :=
  lhs_contracted mm rfl 512 rfl j k

theorem mm_rhs_col (j : S64x512.Idx) (k : Fin 512) : (mm.rhsIdx j ((contrFin mm rfl 512 rfl).symm k) 1).val = k.val :=
  rhs_contracted mm rfl rfl 512 rfl j k

/-- Into a zero accumulator, entry (l, i) of A · Bᵀ is the inner product of row l of A with row i of B. -/
theorem matmul_rows {φ₁ φ₂ : FTy} (a : FVec Ideal S64x512 φ₁) (b : FVec Ideal S512x512 φ₂) (l : Fin 64) (i : Fin 512) :
    matmul (F := Ideal) mm none a b (constant S64x512 .f32 0x00000000#32) (ix2 l i) = ∑ k : Fin 512, a (ix2 l k) * b (ix2 i k) := by
  refine (Ideal.matmul_constant_zero_apply mm none a b (ix2 l i)).trans ?_
  rw [sum_contr mm rfl 512 rfl]
  refine Finset.sum_congr rfl fun k _ => ?_
  have el : mm.lhsIdx (ix2 l i) ((contrFin mm rfl 512 rfl).symm k) = ix2 l k := funext fun c => Fin.ext (by
    match c with
    | ⟨0, _⟩ => exact mm_lhs_row _ _
    | ⟨1, _⟩ => exact mm_lhs_col _ _)
  have er : mm.rhsIdx (ix2 l i) ((contrFin mm rfl 512 rfl).symm k) = ix2 i k := funext fun c => Fin.ext (by
    match c with
    | ⟨0, _⟩ => exact mm_rhs_row _ _
    | ⟨1, _⟩ => exact mm_rhs_col _ _)
  rw [el, er]

/-- The head store at (·, l, i): row l of the weight block against row i of the feature block. -/
theorem pay_head (x0 : Vec Ideal S1x512x512 .f32) (x2 : Vec Ideal S64x512 .f32) (u : Fin 1) (l : Fin 64) (i : Fin 512) :
    k0_pay1 (F := Ideal) x0 x2 (ix3 u l i) = ∑ k : Fin 512, x2 (ix2 l k) * x0 (ix3 (0 : Fin 1) i k) := by
  unfold k0_pay1
  refine (shapeCast_ab_1ab_apply _ _ u l i).trans ?_
  refine (matmul_rows _ _ l i).trans ?_
  refine Finset.sum_congr rfl fun k _ => ?_
  show (shapeCast S64x512 x2 shapeCasts_S64x512_S64x512) (ix2 l k) * (shapeCast S512x512 x0 shapeCasts_S1x512x512_S512x512) (ix2 i k) = _
  rw [shapeCast_self, shapeCast_1ab_ab_apply]

/-- The dependent store at (·, l, i): the same product of the other two blocks. -/
theorem pay_dep (x1 : Vec Ideal S1x512x512 .f32) (x3 : Vec Ideal S64x512 .f32) (u : Fin 1) (l : Fin 64) (i : Fin 512) :
    k0_pay2 (F := Ideal) x1 x3 (ix3 u l i) = ∑ k : Fin 512, x3 (ix2 l k) * x1 (ix3 (0 : Fin 1) i k) := by
  unfold k0_pay2
  refine (shapeCast_ab_1ab_apply _ _ u l i).trans ?_
  refine (matmul_rows _ _ l i).trans ?_
  refine Finset.sum_congr rfl fun k _ => ?_
  show (shapeCast S64x512 x3 shapeCasts_S64x512_S64x512) (ix2 l k) * (shapeCast S512x512 x1 shapeCasts_S1x512x512_S512x512) (ix2 i k) = _
  rw [shapeCast_self, shapeCast_1ab_ab_apply]

/-! ## A unit axis inserted, then stretched -/

section Stretch
variable {α : Type}

/-- A [64, 128] block given a trailing unit axis and stretched along it: entry (l, p, q) is the block's (l, p). -/
theorem stretch_cols (v : S64x128.Idx → α) (l : Fin 64) (p q : Fin 128) :
    broadcastTo S64x128x128 (shapeCast S64x128x1 v shapeCasts_S64x128_S64x128x1) broadcasts_S64x128x1_S64x128x128 (ix3 l p q) = v (ix2 l p) :=
  (broadcastTo_apply _ broadcasts_S64x128x1_S64x128x128 (ix3 l p q) (ix3 l p (0 : Fin 1)) (fun a => match a with
    | ⟨0, _⟩ => by show l.val = if (64 : Nat) = 1 then 0 else l.val; rw [if_neg (by decide)]
    | ⟨1, _⟩ => by show p.val = if (128 : Nat) = 1 then 0 else p.val; rw [if_neg (by decide)]
    | ⟨2, _⟩ => by show 0 = if (1 : Nat) = 1 then 0 else q.val; rw [if_pos rfl])).trans
  (shapeCast_apply v shapeCasts_S64x128_S64x128x1 (ix3 l p (0 : Fin 1)) (ix2 l p) (by
    rw [Shape.rowMajor_val_two, Shape.rowMajor_val_three]
    show l.val * 128 + p.val = (l.val * 128 + p.val) * 1 + 0
    omega))

/-- A [64, 128] block given a middle unit axis and stretched along it: entry (l, p, q) is the block's (l, q). -/
theorem stretch_rows (v : S64x128.Idx → α) (l : Fin 64) (p q : Fin 128) :
    broadcastTo S64x128x128 (shapeCast S64x1x128 v shapeCasts_S64x128_S64x1x128) broadcasts_S64x1x128_S64x128x128 (ix3 l p q) = v (ix2 l q) :=
  (broadcastTo_apply _ broadcasts_S64x1x128_S64x128x128 (ix3 l p q) (ix3 l (0 : Fin 1) q) (fun a => match a with
    | ⟨0, _⟩ => by show l.val = if (64 : Nat) = 1 then 0 else l.val; rw [if_neg (by decide)]
    | ⟨1, _⟩ => by show 0 = if (1 : Nat) = 1 then 0 else p.val; rw [if_pos rfl]
    | ⟨2, _⟩ => by show q.val = if (128 : Nat) = 1 then 0 else q.val; rw [if_neg (by decide)])).trans
  (shapeCast_apply v shapeCasts_S64x128_S64x1x128 (ix3 l (0 : Fin 1) q) (ix2 l q) (by
    rw [Shape.rowMajor_val_two, Shape.rowMajor_val_three]
    show l.val * 128 + q.val = (l.val * 1 + 0) * 128 + q.val
    omega))

/-- A [64, 1] column given a trailing unit axis and stretched along both: entry (l, p, q) is the column's entry l. -/
theorem stretch_column (v : S64x1.Idx → α) (l : Fin 64) (p q : Fin 128) :
    broadcastTo S64x128x128 (shapeCast S64x1x1 v shapeCasts_S64x1_S64x1x1) broadcasts_S64x1x1_S64x128x128 (ix3 l p q) = v (ix2 l (0 : Fin 1)) :=
  (broadcastTo_apply _ broadcasts_S64x1x1_S64x128x128 (ix3 l p q) (ix3 l (0 : Fin 1) (0 : Fin 1)) (fun a => match a with
    | ⟨0, _⟩ => by show l.val = if (64 : Nat) = 1 then 0 else l.val; rw [if_neg (by decide)]
    | ⟨1, _⟩ => by show 0 = if (1 : Nat) = 1 then 0 else p.val; rw [if_pos rfl]
    | ⟨2, _⟩ => by show 0 = if (1 : Nat) = 1 then 0 else q.val; rw [if_pos rfl])).trans
  (shapeCast_apply v shapeCasts_S64x1_S64x1x1 (ix3 l (0 : Fin 1) (0 : Fin 1)) (ix2 l (0 : Fin 1)) (by
    rw [Shape.rowMajor_val_two, Shape.rowMajor_val_three]
    show l.val * 1 + 0 = (l.val * 1 + 0) * 1 + 0
    omega))

end Stretch

/-- The score store at (·, l, p, q): the head block's (l, p), plus the dependent block's (l, q), plus the bias column's l. -/
theorem pay_score (x0 x1 : Vec Ideal S1x64x128 .f32) (x2 : Vec Ideal S64x1 .f32) (u : Fin 1) (l : Fin 64) (p q : Fin 128) :
    k1_pay1 (F := Ideal) x0 x1 x2 (ix4 u l p q)
      = (x0 (ix3 (0 : Fin 1) l p) + x1 (ix3 (0 : Fin 1) l q)) + x2 (ix2 l (0 : Fin 1)) := by
  unfold k1_pay1
  refine (shapeCast_abc_1abc_apply _ _ u l p q).trans ?_
  show (broadcastTo S64x128x128 (shapeCast S64x128x1 (shapeCast S64x128 x0 shapeCasts_S1x64x128_S64x128) shapeCasts_S64x128_S64x128x1) broadcasts_S64x128x1_S64x128x128 (ix3 l p q)
      + broadcastTo S64x128x128 (shapeCast S64x1x128 (shapeCast S64x128 x1 shapeCasts_S1x64x128_S64x128) shapeCasts_S64x128_S64x1x128) broadcasts_S64x1x128_S64x128x128 (ix3 l p q))
      + broadcastTo S64x128x128 (shapeCast S64x1x1 (shapeCast S64x1 x2 shapeCasts_S64x1_S64x1) shapeCasts_S64x1_S64x1x1) broadcasts_S64x1x1_S64x128x128 (ix3 l p q) = _
  rw [stretch_cols, stretch_rows, stretch_column, shapeCast_self, shapeCast_1ab_ab_apply, shapeCast_1ab_ab_apply]

end Cert.KernelIdeal.Payload

end
-- ==== Proof.Spec.lean ====
/-
  The biaffine label scorer as ONE function of its four inputs.

  For a batch entry b, a label l and two sentence positions i (the head) and j (the dependent) the score is
      out[b, l, i, j] = (h[b, l, i] + d[b, l, j]) + bias[l],
  where h[b, l, i] = Σ_k Wh[l, k] · head[b, i, k] is the inner product, over the 512 features, of label l's head weight
  row with position i's head vector, and d[b, l, j] = Σ_k Wd[l, k] · dep[b, j, k] the same for the dependent side.
  Both programs compute exactly this grouping of the two additions, so no law of the extended reals beyond the
  definitions is needed to join them: every entry of the result depends on one weight row, one feature vector on each
  side and one bias entry, and the sums run over the same 512 positions in both.
-/
import Idealize.ShloMosaic.PureOps.Ideal
import Idealize.ShloMosaic.Lib.ValueIdx

noncomputable section

open scoped BigOperators

namespace Cert.LabelScore

open Idealize.ShloMosaic Idealize.ShloMosaic.ValueIdx

/-- One side's projection: at (b, l, i) the inner product over the 512 features of weight row l with the feature vector
    at position i of batch entry b. -/
def proj (w : Vec Ideal ⟨2, ![64, 512]⟩ .f32) (x : Vec Ideal ⟨3, ![8, 512, 512]⟩ .f32) : Vec Ideal ⟨3, ![8, 64, 512]⟩ .f32 :=
  fun j => ∑ k : Fin 512, w (ix2 (j 1 : Fin 64) k) * x (ix3 (j 0 : Fin 8) (j 2 : Fin 512) k)

/-- The score: the head projection at (b, l, i) plus the dependent projection at (b, l, j), then the label's bias. -/
def score (h d : Vec Ideal ⟨3, ![8, 64, 512]⟩ .f32) (β : Fin 64 → EReal) : Vec Ideal ⟨4, ![8, 64, 512, 512]⟩ .f32 :=
  fun j => (h (ix3 (j 0 : Fin 8) (j 1 : Fin 64) (j 2 : Fin 512)) + d (ix3 (j 0 : Fin 8) (j 1 : Fin 64) (j 3 : Fin 512))) + β (j 1 : Fin 64)

theorem proj_apply (w : Vec Ideal ⟨2, ![64, 512]⟩ .f32) (x : Vec Ideal ⟨3, ![8, 512, 512]⟩ .f32) (b : Fin 8) (l : Fin 64) (i : Fin 512) :
    proj w x (ix3 b l i) = ∑ k : Fin 512, w (ix2 l k) * x (ix3 b i k) := rfl

theorem score_apply (h d : Vec Ideal ⟨3, ![8, 64, 512]⟩ .f32) (β : Fin 64 → EReal) (b : Fin 8) (l : Fin 64) (i j : Fin 512) :
    score h d β (ix4 b l i j) = (h (ix3 b l i) + d (ix3 b l j)) + β l := rfl

end Cert.LabelScore

end
-- ==== Proof.Projections.lean ====
/-
  The first kernel's two result arrays, whole.

  The grid has one point per batch entry b. At point b the body reads batch entry b's [512, 512] feature block and the
  whole [64, 512] weight block, and writes the [64, 512] block b of the result: entry (l, i) of that block is the inner
  product of weight row l with feature row i. The result blocks at the eight points tile the [8, 64, 512] array, so after the
  region the array is the projection of the features onto the weight rows, entry by entry — whatever contents the
  region was entered with.
-/
import proofs.«150450_j56049323213774_1_alg».proof.Proof.Gen.KernelIdeal.Frame
import proofs.«150450_j56049323213774_1_alg».proof.Proof.Payloads
import proofs.«150450_j56049323213774_1_alg».proof.Proof.Spec
import Idealize.ShloMosaic.Lib.Pipeline.Value
import Idealize.ShloMosaic.Lib.ValueIdx

set_option maxRecDepth 16384

noncomputable section

open scoped BigOperators

namespace Cert.KernelIdeal.Projections

open Idealize.ShloMosaic Idealize.ShloMosaic.TcCoe Idealize.ShloMosaic.ValueIdx Idealize.SL.Sem
open Cert.KernelIdeal Cert.KernelIdeal.Gen Cert.LabelScore
open Idealize.ShloMosaic.Pipeline (Dat)

variable (V : (c : Dev nD) → (b : Ref sig .tc) → Buf (Elt Ideal) ((c : Thread nD τ).loc b))

/-- The four arrays the region reads, as it finds them, at their literal types. -/
abbrev headW (c : Dev nD) : Vec Ideal S64x512 .f32 := V c main_v0
abbrev depW (c : Dev nD) : Vec Ideal S64x512 .f32 := V c main_v1
abbrev headX (c : Dev nD) : Vec Ideal S8x512x512 .f32 := V c main_arg0
abbrev depX (c : Dev nD) : Vec Ideal S8x512x512 .f32 := V c main_arg1

theorem zeros3 : (![0, 0, 0] : Fin 3 → Nat) = fun _ => 0 := funext fun a => by fin_cases a <;> rfl
theorem zeros2 : (![0, 0] : Fin 2 → Nat) = fun _ => 0 := funext fun a => by fin_cases a <;> rfl

/-- Where each window sits at a grid point: the feature windows and the result windows move together along the batch
    axis and nowhere else; the weight windows do not move. -/
theorem block_positions : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (2 : Fin 3) = 0 ∧ win0_4.index t (0 : Fin 3) ≤ 7
    ∧ win0_5.index t (1 : Fin 3) = 0 ∧ win0_5.index t (2 : Fin 3) = 0 ∧ win0_5.index t (0 : Fin 3) ≤ 7 :=
  (by decide +kernel : ∀ t : Fin grid0.N, _)

/-- Every batch entry is some point's. -/
theorem head_onto : ∀ q0 : Fin 8, ∃ t : Fin cfg0.N, win0_4.index t = ![q0.val, 0, 0] :=
  (by decide +kernel : ∀ q0 : Fin 8, ∃ t : Fin grid0.N, win0_4.index t = ![q0.val, 0, 0])
theorem dep_onto : ∀ q0 : Fin 8, ∃ t : Fin cfg0.N, win0_5.index t = ![q0.val, 0, 0] :=
  (by decide +kernel : ∀ q0 : Fin 8, ∃ t : Fin grid0.N, win0_5.index t = ![q0.val, 0, 0])

/-- What a point writes back to the head result is its block of the head projection. -/
theorem flushed_head (c : Dev nD) (t : Fin cfg0.N) :
    (dat0 V c).flushed 4 t = ((cfg0.win 4).blk t).view.read (Elt Ideal) (proj (V c main_v0) (V c main_arg0)) := by
  show (cfg0.win 4).cut (grid0.coords t) ((dat0 V c).after 4 t) = _
  rw [after0_4]
  unfold out0_4
  rw [View.canon_unit_zero zeros3]
  simp only [View.ld_unit_zero (S := S1x512x512) zeros3, View.ld_unit_zero (S := S64x512) zeros2]
  obtain ⟨e00, e01, e02, e10, e11, e12, e20, e21, e30, e31, e41, e42, e40, e51, e52, e50⟩ := block_positions t
  funext j
  obtain ⟨u, l, i, rfl⟩ : ∃ (u : Fin 1) (l : Fin 64) (i : Fin 512), j = ix3 u l i := ⟨j 0, j 1, j 2, eq_ix3 j⟩
  show k0_pay1 (iblk0 V c 0 t) (iblk0 V c 2 t) (ix3 u l i) = proj (V c main_v0) (V c main_arg0) (((cfg0.win 4).blk t).view.emb (ix3 u l i))
  refine (Payload.pay_head _ _ u l i).trans ?_
  have hb : win0_4.index t (0 : Fin 3) < 8 := by omega
  have hu : u.val = 0 := by omega
  have hJ : ((cfg0.win 4).blk t).view.emb (ix3 u l i) = ix3 (⟨win0_4.index t (0 : Fin 3), hb⟩ : Fin 8) l i := by
    funext a; apply Fin.ext
    match a with
    | ⟨0, _⟩ => show win0_4.index t (0 : Fin 3) * 1 + 1 * u.val = win0_4.index t (0 : Fin 3); omega
    | ⟨1, _⟩ => show win0_4.index t (1 : Fin 3) * 64 + 1 * l.val = l.val; omega
    | ⟨2, _⟩ => show win0_4.index t (2 : Fin 3) * 512 + 1 * i.val = i.val; omega
  rw [hJ, proj_apply]
  refine Finset.sum_congr rfl fun k _ => ?_
  show headW V c (((cfg0.win 2).blk t).view.emb (ix2 l k)) * headX V c (((cfg0.win 0).blk t).view.emb (ix3 (0 : Fin 1) i k)) = _
  have hw : ((cfg0.win 2).blk t).view.emb (ix2 l k) = ix2 l k := by
    funext a; apply Fin.ext
    match a with
    | ⟨0, _⟩ => show win0_2.index t (0 : Fin 2) * 64 + 1 * l.val = l.val; omega
    | ⟨1, _⟩ => show win0_2.index t (1 : Fin 2) * 512 + 1 * k.val = k.val; omega
  have hx : ((cfg0.win 0).blk t).view.emb (ix3 (0 : Fin 1) i k) = ix3 (⟨win0_4.index t (0 : Fin 3), hb⟩ : Fin 8) i k := by
    funext a; apply Fin.ext
    match a with
    | ⟨0, _⟩ => show win0_0.index t (0 : Fin 3) * 1 + 1 * 0 = win0_4.index t (0 : Fin 3); omega
    | ⟨1, _⟩ => show win0_0.index t (1 : Fin 3) * 512 + 1 * i.val = i.val; omega
    | ⟨2, _⟩ => show win0_0.index t (2 : Fin 3) * 512 + 1 * k.val = k.val; omega
  rw [hw, hx]

/-- What a point writes back to the dependent result is its block of the dependent projection. -/
theorem flushed_dep (c : Dev nD) (t : Fin cfg0.N) :
    (dat0 V c).flushed 5 t = ((cfg0.win 5).blk t).view.read (Elt Ideal) (proj (V c main_v1) (V c main_arg1)) := by
  show (cfg0.win 5).cut (grid0.coords t) ((dat0 V c).after 5 t) = _
  rw [after0_5]
  unfold out0_5
  rw [View.canon_unit_zero zeros3]
  simp only [View.ld_unit_zero (S := S1x512x512) zeros3, View.ld_unit_zero (S := S64x512) zeros2]
  obtain ⟨e00, e01, e02, e10, e11, e12, e20, e21, e30, e31, e41, e42, e40, e51, e52, e50⟩ := block_positions t
  funext j
  obtain ⟨u, l, i, rfl⟩ : ∃ (u : Fin 1) (l : Fin 64) (i : Fin 512), j = ix3 u l i := ⟨j 0, j 1, j 2, eq_ix3 j⟩
  show k0_pay2 (iblk0 V c 1 t) (iblk0 V c 3 t) (ix3 u l i) = proj (V c main_v1) (V c main_arg1) (((cfg0.win 5).blk t).view.emb (ix3 u l i))
  refine (Payload.pay_dep _ _ u l i).trans ?_
  have hb : win0_5.index t (0 : Fin 3) < 8 := by omega
  have hu : u.val = 0 := by omega
  have hJ : ((cfg0.win 5).blk t).view.emb (ix3 u l i) = ix3 (⟨win0_5.index t (0 : Fin 3), hb⟩ : Fin 8) l i := by
    funext a; apply Fin.ext
    match a with
    | ⟨0, _⟩ => show win0_5.index t (0 : Fin 3) * 1 + 1 * u.val = win0_5.index t (0 : Fin 3); omega
    | ⟨1, _⟩ => show win0_5.index t (1 : Fin 3) * 64 + 1 * l.val = l.val; omega
    | ⟨2, _⟩ => show win0_5.index t (2 : Fin 3) * 512 + 1 * i.val = i.val; omega
  rw [hJ, proj_apply]
  refine Finset.sum_congr rfl fun k _ => ?_
  show depW V c (((cfg0.win 3).blk t).view.emb (ix2 l k)) * depX V c (((cfg0.win 1).blk t).view.emb (ix3 (0 : Fin 1) i k)) = _
  have hw : ((cfg0.win 3).blk t).view.emb (ix2 l k) = ix2 l k := by
    funext a; apply Fin.ext
    match a with
    | ⟨0, _⟩ => show win0_3.index t (0 : Fin 2) * 64 + 1 * l.val = l.val; omega
    | ⟨1, _⟩ => show win0_3.index t (1 : Fin 2) * 512 + 1 * k.val = k.val; omega
  have hx : ((cfg0.win 1).blk t).view.emb (ix3 (0 : Fin 1) i k) = ix3 (⟨win0_5.index t (0 : Fin 3), hb⟩ : Fin 8) i k := by
    funext a; apply Fin.ext
    match a with
    | ⟨0, _⟩ => show win0_1.index t (0 : Fin 3) * 1 + 1 * 0 = win0_5.index t (0 : Fin 3); omega
    | ⟨1, _⟩ => show win0_1.index t (1 : Fin 3) * 512 + 1 * i.val = i.val; omega
    | ⟨2, _⟩ => show win0_1.index t (2 : Fin 3) * 512 + 1 * k.val = k.val; omega
  rw [hw, hx]

/-- An index of the head result is in a point's block iff each coordinate is in the block's range on its axis. -/
theorem mem_head_block (t : Fin cfg0.N) (i : S8x64x512.Idx) :
    i ∈ ((cfg0.win 4).blk t).view.set ↔ ∀ a : Fin 3, win0_4.index t a * S1x64x512.size a ≤ (i a).val ∧ (i a).val < win0_4.index t a * S1x64x512.size a + S1x64x512.size a := by
  show i ∈ ((View.whole main_v3_0).slice (win0_4.rect t)).set ↔ _
  rw [View.set_slice_whole, Rect.mem_set_unit]
  exact Iff.rfl
theorem mem_dep_block (t : Fin cfg0.N) (i : S8x64x512.Idx) :
    i ∈ ((cfg0.win 5).blk t).view.set ↔ ∀ a : Fin 3, win0_5.index t a * S1x64x512.size a ≤ (i a).val ∧ (i a).val < win0_5.index t a * S1x64x512.size a + S1x64x512.size a := by
  show i ∈ ((View.whole main_v3_1).slice (win0_5.rect t)).set ↔ _
  rw [View.set_slice_whole, Rect.mem_set_unit]
  exact Iff.rfl

/-- The blocks cover the head result: entry (b, l, i) lies in the block of the point whose batch entry is b. -/
theorem head_covered (i : S8x64x512.Idx) : ∃ t : Fin cfg0.N, (cfg0.win 4).flush t = true ∧ i ∈ ((cfg0.win 4).blk t).view.set := by
  have h0 : (i 0).val < 8 := (i 0).isLt
  have h1 : (i 1).val < 64 := (i 1).isLt
  have h2 : (i 2).val < 512 := (i 2).isLt
  obtain ⟨t, ht⟩ := head_onto ⟨(i 0).val, h0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_head_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 512 ≤ (i 2).val ∧ (i 2).val < win0_4.index t (2 : Fin 3) * 512 + 512; omega
theorem dep_covered (i : S8x64x512.Idx) : ∃ t : Fin cfg0.N, (cfg0.win 5).flush t = true ∧ i ∈ ((cfg0.win 5).blk t).view.set := by
  have h0 : (i 0).val < 8 := (i 0).isLt
  have h1 : (i 1).val < 64 := (i 1).isLt
  have h2 : (i 2).val < 512 := (i 2).isLt
  obtain ⟨t, ht⟩ := dep_onto ⟨(i 0).val, h0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, flush0_5 t, ?_⟩
  rw [mem_dep_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 512 ≤ (i 2).val ∧ (i 2).val < win0_5.index t (2 : Fin 3) * 512 + 512; omega

/-- After the region the head result is the head projection of the entry contents. -/
theorem head_array (c : Dev nD) : (dat0 V c).arrAt 4 cfg0.N = proj (V c main_v0) (V c main_arg0) :=
  (dat0 V c).arrAt_eq_of_cover 4 (proj (V c main_v0) (V c main_arg0)) (fun t _ => flushed_head V c t) head_covered

/-- After the region the dependent result is the dependent projection of the entry contents. -/
theorem dep_array (c : Dev nD) : (dat0 V c).arrAt 5 cfg0.N = proj (V c main_v1) (V c main_arg1) :=
  (dat0 V c).arrAt_eq_of_cover 5 (proj (V c main_v1) (V c main_arg1)) (fun t _ => flushed_dep V c t) dep_covered

end Cert.KernelIdeal.Projections

end
-- ==== Proof.Scores.lean ====
/-
  The second kernel's result array, whole.

  The grid has one point per batch entry b and per pair (I, J) of 128-wide tiles of the two sentence axes. At that point the
  body reads columns 128·I … 128·I + 127 of batch entry b's head projection, columns 128·J … 128·J + 127 of its dependent
  projection and the whole bias column, and writes the [64, 128, 128] tile (b, ·, I, J) of the result: entry (l, p, q) of the tile
  is head[l, p] + dep[l, q] + bias[l]. The 128 tiles fill the [8, 64, 512, 512] array, so after the region the array is the
  score of the two projections and the bias the region was entered with, entry by entry.
-/
import proofs.«150450_j56049323213774_1_alg».proof.Proof.Gen.KernelIdeal.Frame
import proofs.«150450_j56049323213774_1_alg».proof.Proof.Payloads
import proofs.«150450_j56049323213774_1_alg».proof.Proof.Spec
import Idealize.ShloMosaic.Lib.Pipeline.Value
import Idealize.ShloMosaic.Lib.ValueIdx

set_option maxRecDepth 16384

noncomputable section

open scoped BigOperators

namespace Cert.KernelIdeal.Scores

open Idealize.ShloMosaic Idealize.ShloMosaic.TcCoe Idealize.ShloMosaic.ValueIdx Idealize.SL.Sem
open Cert.KernelIdeal Cert.KernelIdeal.Gen Cert.LabelScore
open Idealize.ShloMosaic.Pipeline (Dat)

variable (V : (c : Dev nD) → (b : Ref sig .tc) → Buf (Elt Ideal) ((c : Thread nD τ).loc b))

/-- The three arrays the region reads, as it finds them, at their literal types. -/
abbrev headP (c : Dev nD) : Vec Ideal S8x64x512 .f32 := V c main_v3_0
abbrev depP (c : Dev nD) : Vec Ideal S8x64x512 .f32 := V c main_v3_1
abbrev biasCol (c : Dev nD) : Vec Ideal S64x1 .f32 := V c main_v2

/-- The bias column as a function of the label. -/
abbrev biasOf (c : Dev nD) : Fin 64 → EReal := fun l => biasCol V c (ix2 l (0 : Fin 1))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- Where each window sits at a grid point: the head window follows the result's batch entry and first sentence tile, the
    dependent window its batch entry and second sentence tile; the bias window does not move. -/
theorem tile_positions : ∀ t : Fin cfg1.N,
    win1_0.index t (0 : Fin 3) = win1_3.index t (0 : Fin 4) ∧ win1_0.index t (1 : Fin 3) = 0 ∧ win1_0.index t (2 : Fin 3) = win1_3.index t (2 : Fin 4)
    ∧ win1_1.index t (0 : Fin 3) = win1_3.index t (0 : Fin 4) ∧ win1_1.index t (1 : Fin 3) = 0 ∧ win1_1.index t (2 : Fin 3) = win1_3.index t (3 : Fin 4)
    ∧ win1_2.index t (0 : Fin 2) = 0 ∧ win1_2.index t (1 : Fin 2) = 0
    ∧ win1_3.index t (1 : Fin 4) = 0 ∧ win1_3.index t (0 : Fin 4) ≤ 7 ∧ win1_3.index t (2 : Fin 4) ≤ 3 ∧ win1_3.index t (3 : Fin 4) ≤ 3 :=
  (by decide +kernel : ∀ t : Fin grid1.N, _)

/-- Every batch entry and pair of tiles is some point's. -/
theorem tile_onto : ∀ (q0 : Fin 8) (q2 q3 : Fin 4), ∃ t : Fin cfg1.N, win1_3.index t = ![q0.val, 0, q2.val, q3.val] :=
  (by decide +kernel : ∀ (q0 : Fin 8) (q2 q3 : Fin 4), ∃ t : Fin grid1.N, win1_3.index t = ![q0.val, 0, q2.val, q3.val])

/-- What a point writes back is its tile of the score of the arrays the region was entered with. -/
theorem flushed_score (c : Dev nD) (t : Fin cfg1.N) :
    (dat1 V c).flushed 3 t = ((cfg1.win 3).blk t).view.read (Elt Ideal) (score (headP V c) (depP V c) (biasOf V c)) := by
  show (cfg1.win 3).cut (grid1.coords t) ((dat1 V c).after 3 t) = _
  rw [after1_3]
  unfold out1_3
  rw [View.canon_unit_zero zeros4]
  simp only [View.ld_unit_zero (S := S1x64x128) zeros3, View.ld_unit_zero (S := S64x1) zeros2]
  obtain ⟨e00, e01, e02, e10, e11, e12, e20, e21, e31, e30, e32, e33⟩ := tile_positions t
  funext j
  obtain ⟨u, l, p, q, rfl⟩ : ∃ (u : Fin 1) (l : Fin 64) (p q : Fin 128), j = ix4 u l p q := ⟨j 0, j 1, j 2, j 3, eq_ix4 j⟩
  show k1_pay1 (iblk1 V c 0 t) (iblk1 V c 1 t) (iblk1 V c 2 t) (ix4 u l p q)
    = score (headP V c) (depP V c) (biasOf V c) (((cfg1.win 3).blk t).view.emb (ix4 u l p q))
  refine (Payload.pay_score _ _ _ u l p q).trans ?_
  have hu : u.val = 0 := by omega
  have hp : p.val < 128 := p.isLt
  have hq : q.val < 128 := q.isLt
  have hb : win1_3.index t (0 : Fin 4) < 8 := by omega
  have hI : win1_3.index t (2 : Fin 4) * 128 + p.val < 512 := by omega
  have hJ : win1_3.index t (3 : Fin 4) * 128 + q.val < 512 := by omega
  have hE : ((cfg1.win 3).blk t).view.emb (ix4 u l p q)
      = ix4 (⟨win1_3.index t (0 : Fin 4), hb⟩ : Fin 8) l (⟨win1_3.index t (2 : Fin 4) * 128 + p.val, hI⟩ : Fin 512) (⟨win1_3.index t (3 : Fin 4) * 128 + q.val, hJ⟩ : Fin 512) := by
    funext a; apply Fin.ext
    match a with
    | ⟨0, _⟩ => show win1_3.index t (0 : Fin 4) * 1 + 1 * u.val = win1_3.index t (0 : Fin 4); omega
    | ⟨1, _⟩ => show win1_3.index t (1 : Fin 4) * 64 + 1 * l.val = l.val; omega
    | ⟨2, _⟩ => show win1_3.index t (2 : Fin 4) * 128 + 1 * p.val = win1_3.index t (2 : Fin 4) * 128 + p.val; omega
    | ⟨3, _⟩ => show win1_3.index t (3 : Fin 4) * 128 + 1 * q.val = win1_3.index t (3 : Fin 4) * 128 + q.val; omega
  rw [hE, score_apply]
  show (headP V c (((cfg1.win 0).blk t).view.emb (ix3 (0 : Fin 1) l p)) + depP V c (((cfg1.win 1).blk t).view.emb (ix3 (0 : Fin 1) l q)))
      + biasCol V c (((cfg1.win 2).blk t).view.emb (ix2 l (0 : Fin 1))) = _
  have hh : ((cfg1.win 0).blk t).view.emb (ix3 (0 : Fin 1) l p)
      = ix3 (⟨win1_3.index t (0 : Fin 4), hb⟩ : Fin 8) l (⟨win1_3.index t (2 : Fin 4) * 128 + p.val, hI⟩ : Fin 512) := by
    funext a; apply Fin.ext
    match a with
    | ⟨0, _⟩ => show win1_0.index t (0 : Fin 3) * 1 + 1 * 0 = win1_3.index t (0 : Fin 4); omega
    | ⟨1, _⟩ => show win1_0.index t (1 : Fin 3) * 64 + 1 * l.val = l.val; omega
    | ⟨2, _⟩ => show win1_0.index t (2 : Fin 3) * 128 + 1 * p.val = win1_3.index t (2 : Fin 4) * 128 + p.val; omega
  have hd : ((cfg1.win 1).blk t).view.emb (ix3 (0 : Fin 1) l q)
      = ix3 (⟨win1_3.index t (0 : Fin 4), hb⟩ : Fin 8) l (⟨win1_3.index t (3 : Fin 4) * 128 + q.val, hJ⟩ : Fin 512) := by
    funext a; apply Fin.ext
    match a with
    | ⟨0, _⟩ => show win1_1.index t (0 : Fin 3) * 1 + 1 * 0 = win1_3.index t (0 : Fin 4); omega
    | ⟨1, _⟩ => show win1_1.index t (1 : Fin 3) * 64 + 1 * l.val = l.val; omega
    | ⟨2, _⟩ => show win1_1.index t (2 : Fin 3) * 128 + 1 * q.val = win1_3.index t (3 : Fin 4) * 128 + q.val; omega
  have hβ : ((cfg1.win 2).blk t).view.emb (ix2 l (0 : Fin 1)) = ix2 l (0 : Fin 1) := by
    funext a; apply Fin.ext
    match a with
    | ⟨0, _⟩ => show win1_2.index t (0 : Fin 2) * 64 + 1 * l.val = l.val; omega
    | ⟨1, _⟩ => show win1_2.index t (1 : Fin 2) * 1 + 1 * 0 = 0; omega
  rw [hh, hd, hβ]

/-- An index of the result is in a point's tile iff each coordinate is in the tile's range on its axis. -/
theorem mem_tile (t : Fin cfg1.N) (i : S8x64x512x512.Idx) :
    i ∈ ((cfg1.win 3).blk t).view.set ↔ ∀ a : Fin 4, win1_3.index t a * S1x64x128x128.size a ≤ (i a).val ∧ (i a).val < win1_3.index t a * S1x64x128x128.size a + S1x64x128x128.size a := by
  show i ∈ ((View.whole main_v4).slice (win1_3.rect t)).set ↔ _
  rw [View.set_slice_whole, Rect.mem_set_unit]
  exact Iff.rfl

/-- The tiles cover the result: entry (b, l, i, j) lies in the tile of the point (b, i / 128, j / 128). -/
theorem covered (i : S8x64x512x512.Idx) : ∃ t : Fin cfg1.N, (cfg1.win 3).flush t = true ∧ i ∈ ((cfg1.win 3).blk t).view.set := by
  have h0 : (i 0).val < 8 := (i 0).isLt
  have h1 : (i 1).val < 64 := (i 1).isLt
  have h2 : (i 2).val < 512 := (i 2).isLt
  have h3 : (i 3).val < 512 := (i 3).isLt
  obtain ⟨t, ht⟩ := tile_onto ⟨(i 0).val, h0⟩ ⟨(i 2).val / 128, by omega⟩ ⟨(i 3).val / 128, by omega⟩
  have q0 : win1_3.index t (0 : Fin 4) = (i 0).val := congrFun ht 0
  have q1 : win1_3.index t (1 : Fin 4) = 0 := congrFun ht 1
  have q2 : win1_3.index t (2 : Fin 4) = (i 2).val / 128 := congrFun ht 2
  have q3 : win1_3.index t (3 : Fin 4) = (i 3).val / 128 := congrFun ht 3
  refine ⟨t, flush1_3 t, ?_⟩
  rw [mem_tile]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 64 ≤ (i 1).val ∧ (i 1).val < win1_3.index t (1 : Fin 4) * 64 + 64; omega
  | ⟨2, _⟩ => show win1_3.index t (2 : Fin 4) * 128 ≤ (i 2).val ∧ (i 2).val < win1_3.index t (2 : Fin 4) * 128 + 128; omega
  | ⟨3, _⟩ => show win1_3.index t (3 : Fin 4) * 128 ≤ (i 3).val ∧ (i 3).val < win1_3.index t (3 : Fin 4) * 128 + 128; omega

/-- After the region the result is the score of the two projections and the bias it was entered with. -/
theorem score_array (c : Dev nD) : (dat1 V c).arrAt 3 cfg1.N = score (headP V c) (depP V c) (biasOf V c) :=
  (dat1 V c).arrAt_eq_of_cover 3 (score (headP V c) (depP V c) (biasOf V c)) (fun t _ => flushed_score V c t) covered

end Cert.KernelIdeal.Scores

end
-- ==== Proof.KernelScore.lean ====
/-
  The kernel computes the score.

  @main slices the weight matrix into its first and last 512 columns and reshapes the bias vector into a column; the first
  region turns the two halves and the two feature arrays into the head and dependent projections; the second region adds,
  for every pair of positions, the head projection, the dependent projection and the bias. Each region's result array is
  one function of the contents it was entered with, so the result of the whole program is the composition: the score of
  the projections of the launch contents.
-/
import proofs.«150450_j56049323213774_1_alg».proof.Proof.Gen.KernelIdeal.Frame
import proofs.«150450_j56049323213774_1_alg».proof.Proof.Projections
import proofs.«150450_j56049323213774_1_alg».proof.Proof.Scores
import proofs.«150450_j56049323213774_1_alg».proof.Proof.KernelRun
import proofs.«150450_j56049323213774_1_alg».proof.Proof.Spec
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.LabelScore

variable (m : (ℓ : Loc nD τ sig) → Buf (Elt Ideal) ℓ) (ρ : Dev nD → PrngReg)

/-- The launch contents of the four arguments, at their literal types. -/
abbrev head0 (c : Dev nD) : Vec Ideal S8x512x512 .f32 := m ((c.tc : Thread nD τ).loc main_arg0)
abbrev dep0 (c : Dev nD) : Vec Ideal S8x512x512 .f32 := m ((c.tc : Thread nD τ).loc main_arg1)
abbrev weights0 (c : Dev nD) : Vec Ideal S64x1024 .f32 := m ((c.tc : Thread nD τ).loc main_arg2)
abbrev bias0 (c : Dev nD) : Vec Ideal S64 .f32 := m ((c.tc : Thread nD τ).loc main_arg3)

/-- The two halves of the weight matrix. -/
abbrev headHalf (c : Dev nD) : Vec Ideal S64x512 .f32 := extractStridedSlice S64x512 ![0, 0] (weights0 m c) slices_S64x1024_S64x512_0_0
abbrev depHalf (c : Dev nD) : Vec Ideal S64x512 .f32 := extractStridedSlice S64x512 ![0, 512] (weights0 m c) slices_S64x1024_S64x512_0_512

/-- What the program ends with: the score of the projections of the launch contents. -/
abbrev final (c : Dev nD) : Vec Ideal S8x64x512x512 .f32 :=
  score (proj (headHalf m c) (head0 m c)) (proj (depHalf m c) (dep0 m c)) (fun l => bias0 m c (ix1 l))

/-! ## The first region is entered with the two halves and the features as launched -/

theorem entry_headW (c : Dev nD) : Projections.headW (V1 m ρ) c = headHalf m c := by
  show StableHlo.after hostOps0 (W0 m ρ c) (Proc.devRef .tc main_v0) = _
  after_results

theorem entry_depW (c : Dev nD) : Projections.depW (V1 m ρ) c = depHalf m c := by
  show StableHlo.after hostOps0 (W0 m ρ c) (Proc.devRef .tc main_v1) = _
  after_results

theorem entry_headX (c : Dev nD) : Projections.headX (V1 m ρ) c = head0 m c := by
  show StableHlo.after hostOps0 (W0 m ρ c) (Proc.devRef .tc main_arg0) = _
  after_results

theorem entry_depX (c : Dev nD) : Projections.depX (V1 m ρ) c = dep0 m c := by
  show StableHlo.after hostOps0 (W0 m ρ c) (Proc.devRef .tc main_arg1) = _
  after_results

/-! ## The second region is entered with the two projections and the bias column -/

theorem entry_headP (c : Dev nD) : Scores.headP (V2 m ρ) c = proj (headHalf m c) (head0 m c) := by
  show W2 m ρ c (Proc.devRef .tc main_v3_0) = _
  refine (W2_arr m ρ c 4).trans ?_
  refine (Projections.head_array (V1 m ρ) c).trans ?_
  show proj (Projections.headW (V1 m ρ) c) (Projections.headX (V1 m ρ) c) = _
  rw [entry_headW, entry_headX]

theorem entry_depP (c : Dev nD) : Scores.depP (V2 m ρ) c = proj (depHalf m c) (dep0 m c) := by
  show W2 m ρ c (Proc.devRef .tc main_v3_1) = _
  refine (W2_arr m ρ c 5).trans ?_
  refine (Projections.dep_array (V1 m ρ) c).trans ?_
  show proj (Projections.depW (V1 m ρ) c) (Projections.depX (V1 m ρ) c) = _
  rw [entry_depW, entry_depX]

/-- The bias column is the bias vector reshaped: its entry (l, 0) is the vector's entry l. The first region does not
    touch it. -/
theorem entry_bias (c : Dev nD) (l : Fin 64) : Scores.biasOf (V2 m ρ) c l = bias0 m c (ix1 l) := by
  show W2 m ρ c (Proc.devRef .tc main_v2) (ix2 l (0 : Fin 1)) = _
  refine (congrFun (W2_of_ne m ρ c main_v2 (by decide)) (ix2 l (0 : Fin 1))).trans ?_
  have e : W1 m ρ c (Proc.devRef .tc main_v2) = shapeCast S64x1 (bias0 m c) shapeCasts_S64_S64x1 := by
    show StableHlo.after hostOps0 (W0 m ρ c) (Proc.devRef .tc main_v2) = _
    after_results
    rfl
  refine (congrFun e (ix2 l (0 : Fin 1))).trans ?_
  exact shapeCast_apply (bias0 m c) shapeCasts_S64_S64x1 (ix2 l (0 : Fin 1)) (ix1 l) (by
    rw [Shape.rowMajor_val_one, Shape.rowMajor_val_two]
    show l.val = l.val * 1 + 0
    omega)

/-! ## The result -/

/-- The result array at the last boundary is the score of the projections of the launch contents. -/
theorem result (c : Dev nD) : W3 m ρ c (Proc.devRef .tc main_v4) = final m c := by
  refine (W3_arr m ρ c 3).trans ?_
  refine (Scores.score_array (V2 m ρ) c).trans ?_
  rw [entry_headP, entry_depP, funext (entry_bias m ρ c)]

/-- Every weakly fair execution of the kernel program terminates with the result array at the score and the arguments
    as launched. -/
theorem run : θ_run defs (onTc (τ := τ) (main (F := Ideal))) ⟨m, fun _ => 0, ρ⟩ (fun r => ∀ c : Dev nD,
      r.2.mem ((c.tc : Thread nD τ).loc main_v4) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (Named.run m ρ)

end Cert.KernelIdeal.Result

end
-- ==== Proof.RefScore.lean ====
/-
  The reference computes the score.

  Read one stage at a time, entry (b, l, i, j) of the reference's result is (h + d) + bias, where h is the transposed
  contraction of the first 512 columns of the weight matrix with the head features, read at (l, b, i), d the same for the last
  512 columns and the dependent features at (l, b, j), and bias the bias vector's entry l reached through two broadcasts.
  The contraction at (l, b, i) is Σ_k W[l, k] · head[b, i, k]: the inner product the specification names.
-/
import proofs.«150450_j56049323213774_1_alg».proof.Proof.Gen.ReferenceIdeal.Read
import proofs.«150450_j56049323213774_1_alg».proof.Proof.Spec
import Idealize.ShloMosaic.Lib.ValueIdx

noncomputable section

open scoped BigOperators

namespace Cert.ReferenceIdeal.RefScore

open Idealize.ShloMosaic Idealize.ShloMosaic.ValueIdx
open Cert.ReferenceIdeal Cert.ReferenceIdeal.Read Cert.LabelScore

/-- The reference's result is the score of the two projections (of the two halves of the weight matrix) and the bias. -/
theorem result_is_score (x0 x1 : Vec Ideal S8x512x512 .f32) (x2 : Vec Ideal S64x1024 .f32) (x3 : Vec Ideal S64 .f32) :
    val_main_v13 (F := Ideal) x0 x1 x2 x3
      = score (proj (val_main_v0 (F := Ideal) x2) x0) (proj (val_main_v1 (F := Ideal) x2) x1) (fun l => x3 (ix1 l)) := by
  funext i
  obtain ⟨b, l, p, q, rfl⟩ : ∃ (b : Fin 8) (l : Fin 64) (p q : Fin 512), i = ix4 b l p q := ⟨i 0, i 1, i 2, i 3, eq_ix4 i⟩
  have eL : ∀ k : Fin 512, lidx_main_v2 (idx_main_v3 (idx_main_v6 (idx_main_v8 (ix4 b l p q)))) k = ix2 l k :=
    fun k => funext fun a => Fin.ext (by match a with | ⟨0, _⟩ => rfl | ⟨1, _⟩ => rfl)
  have eR : ∀ k : Fin 512, ridx_main_v2 (idx_main_v3 (idx_main_v6 (idx_main_v8 (ix4 b l p q)))) k = ix3 b p k :=
    fun k => funext fun a => Fin.ext (by match a with | ⟨0, _⟩ => rfl | ⟨1, _⟩ => rfl | ⟨2, _⟩ => rfl)
  have eL' : ∀ k : Fin 512, lidx_main_v4 (idx_main_v5 (idx_main_v7 (idx_main_v9 (ix4 b l p q)))) k = ix2 l k :=
    fun k => funext fun a => Fin.ext (by match a with | ⟨0, _⟩ => rfl | ⟨1, _⟩ => rfl)
  have eR' : ∀ k : Fin 512, ridx_main_v4 (idx_main_v5 (idx_main_v7 (idx_main_v9 (ix4 b l p q)))) k = ix3 b q k :=
    fun k => funext fun a => Fin.ext (by match a with | ⟨0, _⟩ => rfl | ⟨1, _⟩ => rfl | ⟨2, _⟩ => rfl)
  have eB : idx_main_v11 (idx_main_v12 (ix4 b l p q)) = ix1 l :=
    funext fun a => Fin.ext (by match a with | ⟨0, _⟩ => rfl)
  rw [score_apply, proj_apply, proj_apply]
  rw [val_main_v13_apply, val_main_v10_apply, val_main_v8_apply, val_main_v6_apply, val_main_v3_apply, val_main_v2_apply,
    val_main_v9_apply, val_main_v7_apply, val_main_v5_apply, val_main_v4_apply, val_main_v12_apply, val_main_v11_apply]
  simp only [eL, eR, eL', eR', eB]
  rfl

end Cert.ReferenceIdeal.RefScore

end
-- ==== Proof.lean ====
/-
  The biaffine label scorer: the Pallas program and its jnp reference compute the same array over the extended reals.

  out[b, l, i, j] = (Σ_k Wh[l, k] · head[b, i, k] + Σ_k Wd[l, k] · dep[b, j, k]) + bias[l], with Wh and Wd the first and the last 512
  columns of the weight matrix. The kernel program gets there in two regions (the two projections as matrix products on
  bf16-narrowed operands, which at the ideal instance are the operands themselves; then a broadcast sum over 128 × 128
  tiles); the reference by two contractions, two transposes and broadcasts. Both group the two additions the same way and
  sum the same 512 products, so the two results are one function of the arguments (Proof/Spec.lean), with no use of the
  inputs' finiteness. The frames of the two kernel programs are the generated ones; the reference's is its generated run
  with the result dropped; the ideal pass rewrote nothing, so the idealization claim is trivial.
-/
import proofs.«150450_j56049323213774_1_alg».proof.Defs
import proofs.«150450_j56049323213774_1_alg».proof.Proof.Gen.Kernel
import proofs.«150450_j56049323213774_1_alg».proof.Proof.Gen.Kernel.Skeleton
import proofs.«150450_j56049323213774_1_alg».proof.Proof.Gen.Kernel.Launch
import proofs.«150450_j56049323213774_1_alg».proof.Proof.Gen.Kernel.Points
import proofs.«150450_j56049323213774_1_alg».proof.Proof.Gen.Kernel.Frame
import proofs.«150450_j56049323213774_1_alg».proof.Proof.Gen.KernelIdeal
import proofs.«150450_j56049323213774_1_alg».proof.Proof.Gen.KernelIdeal.Skeleton
import proofs.«150450_j56049323213774_1_alg».proof.Proof.Gen.KernelIdeal.Launch
import proofs.«150450_j56049323213774_1_alg».proof.Proof.Gen.KernelIdeal.Points
import proofs.«150450_j56049323213774_1_alg».proof.Proof.Gen.KernelIdeal.Frame
import proofs.«150450_j56049323213774_1_alg».proof.Proof.Gen.ReferenceIdeal
import proofs.«150450_j56049323213774_1_alg».proof.Proof.Gen.ReferenceIdeal.Run
import proofs.«150450_j56049323213774_1_alg».proof.Proof.Gen.ReferenceIdeal.Read
import proofs.«150450_j56049323213774_1_alg».proof.Proof.Gen.Pre_finite_inputs
import proofs.«150450_j56049323213774_1_alg».proof.Proof.KernelScore
import proofs.«150450_j56049323213774_1_alg».proof.Proof.RefScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the score of the projections of the arguments: the kernel program by its two regions
    composed, the reference by its stages read at an index; the arguments agree, so the two arrays are equal. -/
theorem algebraic : Cert.algebraic_KernelIdeal_ReferenceIdeal := by
  intro m ρ m' ρ' _ hagree
  refine ⟨fun c => Cert.KernelIdeal.Result.final m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefScore.result_is_score,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
